-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S1000x16 : Shape := ⟨2, ![1000, 16]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S16384x1000 .f32) (main_arg1 : FVec F S1000x16 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S16384x1000 : Shape := ⟨2, ![16384, 1000]⟩
abbrev S1000x16 : Shape := ⟨2, ![1000, 16]⟩
abbrev S16384x16 : Shape := ⟨2, ![16384, 16]⟩
abbrev S1024x1000 : Shape := ⟨2, ![1024, 1000]⟩
abbrev S4096x16 : Shape := ⟨2, ![4096, 16]⟩
abbrev S1000 : Shape := ⟨1, ![1000]⟩
abbrev S1000x1 : Shape := ⟨2, ![1000, 1]⟩
abbrev S1024x16 : Shape := ⟨2, ![1024, 16]⟩

abbrev nBuf : Space → Nat
  | .hbm => 3
  | .vmem => 11
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S16384x16, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1024x1000, .f32⟩
  | .local _ .vmem, ⟨5, _⟩ => ⟨S1024x1000, .f32⟩
  | .local _ .vmem, ⟨6, _⟩ => ⟨S1024x1000, .f32⟩
  | .local _ .vmem, ⟨7, _⟩ => ⟨S1024x1000, .f32⟩
  | .local _ .vmem, ⟨8, _⟩ => ⟨S1000x16, .f32⟩
  | .local _ .vmem, ⟨9, _⟩ => ⟨S4096x16, .f32⟩
  | .local _ .vmem, ⟨10, _⟩ => ⟨S4096x16, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1000x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1000x16_S1000x16_0_0 : ∀ a, (![0, 0] : Fin 2 → Nat) a + S1000x16.size a ≤ S1000x16.size a
  h_S1000x16 : 0 < S1000x16.numel
  reduces_S1000x16_S1000 : S1000x16.Reduces [1] S1000
  shapeCasts_S1000_S1000x1 : S1000.ShapeCasts S1000x1
  broadcasts_S1000x1_S1000x16 : S1000x1.Broadcasts S1000x16
  inb_S1024x1000_S1024x1000_0_0 : ∀ a, (![0, 0] : Fin 2 → Nat) a + S1024x1000.size a ≤ S1024x1000.size a
  h_S1024x1000 : 0 < S1024x1000.numel
  inb_S4096x16_S1024x16_0_0 : ∀ a, (![0, 0] : Fin 2 → Nat) a + S1024x16.size a ≤ S4096x16.size a
  h_S1024x16 : 0 < S1024x16.numel
  inb_S4096x16_S1024x16_1024_0 : ∀ a, (![1024, 0] : Fin 2 → Nat) a + S1024x16.size a ≤ S4096x16.size a
  inb_S4096x16_S1024x16_2048_0 : ∀ a, (![2048, 0] : Fin 2 → Nat) a + S1024x16.size a ≤ S4096x16.size a
  inb_S4096x16_S1024x16_3072_0 : ∀ a, (![3072, 0] : Fin 2 → Nat) a + S1024x16.size a ≤ S4096x16.size a
  dot_S1024x1000_S1000x16_S1024x16_1_0_0_1_n_n_wf : DotDims.WF S1024x1000 S1000x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S16384x1000.size a
  hwx0_0 : ∀ i : grid0.Coords, EltTy.bits .f32 = 32 ∨ (Rect.block (s := S16384x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S16384x1000.size a
  hwx0_1 : ∀ i : grid0.Coords, EltTy.bits .f32 = 32 ∨ (Rect.block (s := S16384x1000) S1024x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1000.size a ≤ S16384x1000.size a
  hwx0_2 : ∀ i : grid0.Coords, EltTy.bits .f32 = 32 ∨ (Rect.block (s := S16384x1000) S1024x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S16384x1000.size a
  hwx0_3 : ∀ i : grid0.Coords, EltTy.bits .f32 = 32 ∨ (Rect.block (s := S16384x1000) S1024x1000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x16.size a ≤ S1000x16.size a
  hwx0_4 : ∀ i : grid0.Coords, EltTy.bits .f32 = 32 ∨ (Rect.block (s := S1000x16) S1000x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x16.size a ≤ S16384x16.size a
  hwx0_5 : ∀ i : grid0.Coords, EltTy.bits .f32 = 32 ∨ (Rect.block (s := S16384x16) S4096x16.size (cc0_transform_5 i) (hinb0_5 i)).WholeWords (EltTy.packing .f32)

variable [Facts₀]

def dot_S1024x1000_S1000x16_S1024x16_1_0_0_1_n_n : DotDims S1024x1000 S1000x16 S1024x16 where
  lhsContracting := [1]
  rhsContracting := [0]
  lhsNonContracting := [0]
  rhsNonContracting := [1]
  lhsBatch := []
  rhsBatch := []
  wf := dot_S1024x1000_S1000x16_S1024x16_1_0_0_1_n_n_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x1000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1000x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S4096x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S1000x16 : Shape := ⟨2, ![1000, 16]⟩
abbrev S_ : Shape := ⟨0, ![]⟩
abbrev S1000 : Shape := ⟨1, ![1000]⟩
abbrev S1000x1 : Shape := ⟨2, ![1000, 1]⟩
abbrev S16384x16 : Shape := ⟨2, ![16384, 16]⟩

abbrev nBuf : Space → Nat
  | .hbm => 13
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S1000x16, .f32⟩
  | .hbm, ⟨2, _⟩ => ⟨S1000x16, .f32⟩
  | .hbm, ⟨3, _⟩ => ⟨S_, .f32⟩
  | .hbm, ⟨4, _⟩ => ⟨S1000, .f32⟩
  | .hbm, ⟨5, _⟩ => ⟨S1000x1, .f32⟩
  | .hbm, ⟨6, _⟩ => ⟨S1000x1, .f32⟩
  | .hbm, ⟨7, _⟩ => ⟨S_, .f32⟩
  | .hbm, ⟨8, _⟩ => ⟨S1000x1, .f32⟩
  | .hbm, ⟨9, _⟩ => ⟨S1000x1, .f32⟩
  | .hbm, ⟨10, _⟩ => ⟨S1000x16, .f32⟩
  | .hbm, ⟨11, _⟩ => ⟨S1000x16, .f32⟩
  | .hbm, ⟨12, _⟩ => ⟨S16384x16, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  reducesTo_S1000x16_S1000_d1 : S1000x16.ReducesTo [1] S1000
  h_S_ : 0 < S_.numel
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x16_0_1 : S1000x1.BroadcastsInDim S1000x16 (![0, 1] : Fin 2 → Fin S1000x16.rank)
  dot_S16384x1000_S1000x16_S16384x16_1_0_0_1_n_n_wf : DotDims.WF S16384x1000 S1000x16 S16384x16 [1] [0] [0] [1] [] []

variable [Facts₀]

def dot_S16384x1000_S1000x16_S16384x16_1_0_0_1_n_n : DotDims S16384x1000 S1000x16 S16384x16 where
  lhsContracting := [1]
  rhsContracting := [0]
  lhsNonContracting := [0]
  rhsNonContracting := [1]
  lhsBatch := []
  rhsBatch := []
  wf := dot_S16384x1000_S1000x16_S16384x16_1_0_0_1_n_n_wf

class Facts : Prop extends Facts₀ where

variable [Facts]
-- ==== Proof.Body.lean ====
/-
  The kernel body at one grid point.

  The body reads the whole table, scales each table row to unit length, and for each of its four row slabs
  multiplies the slab by the scaled table and stores the 1024 x 16 product into its own quarter of the
  4096 x 16 output block. The four stores tile the output block, so what the body leaves there is a function
  of the five input blocks alone.
-/
import proofs.«169231_g59854664237102_cont_9to1c4b_179_3_alg».proof.Proof.Gen.KernelIdeal.Launch
import proofs.«169231_g59854664237102_cont_9to1c4b_179_3_alg».proof.Proof.Gen.KernelIdeal.Skeleton
import proofs.«169231_g59854664237102_cont_9to1c4b_179_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole table. -/
abbrev rTab : Rect S1000x16 := Rect.unit (s := S1000x16) ![0, 0] S1000x16.size inb_S1000x16_S1000x16_0_0
/-- A whole row slab. -/
abbrev rSlab : Rect S1024x1000 := Rect.unit (s := S1024x1000) ![0, 0] S1024x1000.size inb_S1024x1000_S1024x1000_0_0
/-- The four quarters of the output block, by rows. -/
abbrev rQ0 : Rect S4096x16 := Rect.unit (s := S4096x16) ![0, 0] S1024x16.size inb_S4096x16_S1024x16_0_0
abbrev rQ1 : Rect S4096x16 := Rect.unit (s := S4096x16) ![1024, 0] S1024x16.size inb_S4096x16_S1024x16_1024_0
abbrev rQ2 : Rect S4096x16 := Rect.unit (s := S4096x16) ![2048, 0] S1024x16.size inb_S4096x16_S1024x16_2048_0
abbrev rQ3 : Rect S4096x16 := Rect.unit (s := S4096x16) ![3072, 0] S1024x16.size inb_S4096x16_S1024x16_3072_0

/-! ## What the body leaves in the output block -/

/-- The output block after the body, from the four slabs and the table: quarter `j` holds slab `j` times the
    scaled table (the later store first). -/
def outBlk (x0 x1 x2 x3 : Vec F S1024x1000 .f32) (e : Vec F S1000x16 .f32) : Vec F S4096x16 .f32 :=
  View.canon [⟨rQ3, k0_pay5 (View.ld e rTab) (View.ld x3 rSlab)⟩,
    ⟨rQ2, k0_pay4 (View.ld e rTab) (View.ld x2 rSlab)⟩,
    ⟨rQ1, k0_pay3 (View.ld e rTab) (View.ld x1 rSlab)⟩,
    ⟨rQ0, k0_pay2 (View.ld e rTab) (View.ld x0 rSlab)⟩]

/-- The four quarters tile the block, so they cover it. -/
theorem cover_outBlk (p3 p2 p1 p0 : Vec F S1024x16 .f32) (y : S4096x16.Idx) :
    ∃ pc ∈ ([⟨rQ3, p3⟩, ⟨rQ2, p2⟩, ⟨rQ1, p1⟩, ⟨rQ0, p0⟩] : List (View.Piece (Elt F) S4096x16 .f32)), y ∈ pc.1.set :=
  View.cover_of_tiled [⟨rQ3, p3⟩, ⟨rQ2, p2⟩, ⟨rQ1, p1⟩, ⟨rQ0, p0⟩] S1024x16.size (by rfl) y

/-! ## The body's triple -/

set_option maxHeartbeats 1000000 in
/-- The kernel body on whole staging memrefs, the five inputs' at read contents and the output's at anything, runs
    to the continuation holding the inputs' as they were and the output's at `outBlk` of the inputs'. -/
theorem sound_kernel (c : Dev nD) (E : Set ℕ) (i : grid0.Coords)
    (arg1 : Memref sig .tc .vmem S1024x1000 .f32) (harg1 : arg1.IsWhole) (arg2 : Memref sig .tc .vmem S1024x1000 .f32) (harg2 : arg2.IsWhole)
    (arg3 : Memref sig .tc .vmem S1024x1000 .f32) (harg3 : arg3.IsWhole) (arg4 : Memref sig .tc .vmem S1024x1000 .f32) (harg4 : arg4.IsWhole)
    (arg5 : Memref sig .tc .vmem S1000x16 .f32) (harg5 : arg5.IsWhole) (arg6 : Memref sig .tc .vmem S4096x16 .f32) (harg6 : arg6.IsWhole)
    (x0 x1 x2 x3 : Vec F S1024x1000 .f32) (e : Vec F S1000x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare e ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare e
            ∗ owns (c : Thread nD τ) arg6 fullShare (outBlk x0 x1 x2 x3 e)) -∗ K ⟨⟩))
      ⊢ wp frame (wpE (defs₀ (F := F)) Variants.none c none) E (cc0__embed_kernel i arg1 harg1 arg2 harg2 arg3 harg3 arg4 harg4 arg5 harg5 arg6 harg6) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_outBlk _ _ _ _)

end Cert.KernelIdeal.Fr

end
-- ==== Proof.Data.lean ====
/-
  The pipeline's proof data, and the body obligation at every grid point.

  The grid has four points. At point `t` input window `j` (`j = 0 … 3`) holds rows `(4t + j)·1024 …` of the
  dense matrix, window 4 the whole table, and the output window rows `4096·t …` of the result. All four
  matrix windows read the same array, so each holds a quarter share of it.
-/
import proofs.«169231_g59854664237102_cont_9to1c4b_179_3_alg».proof.Proof.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- Core `c`'s buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's
    buffer at its block and the output's at `outBlk` of the input blocks; the invariant the scoped buffers that
    are no staging buffer, untouched; nothing owed; the dense matrix's array dealt in quarters to the four
    windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.Region.lean ====
/-
  The run of the program: the launch of its one region, and the frame.

  The region's four matrix windows read one array. The array's buffer, held whole when the region is entered,
  is dealt to them in quarters; every other window's array is held whole.
-/
import proofs.«169231_g59854664237102_cont_9to1c4b_179_3_alg».proof.Proof.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The three buffers behind the six windows' arrays, each held whole, make the windows' arrays at the shares the
    proof data names: the dense matrix's buffer split in halves and each half in halves again. -/
theorem arrays_dealt (c : Dev nD) :
    (Pipeline.arrBufs spec0 c (V m c) : sProp 𝕄) ⊢ (dats m 0 c).arrays ((dats m 0 c).arrAt · 0) := by
  have e1 : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0)) := by
    unfold Pipeline.arrBufs
    exact bigSep_eq_bigSepL_of_eq [main_arg0, main_arg1, main_v0] (by decide) (by decide) _
  rw [e1]
  unfold Dat.arrays
  rw [bigSep_W0]
  rw [(arr_whole0 0).set_eq_univ, (arr_whole0 4).set_eq_univ, (arr_whole0 5).set_eq_univ]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl]
  iintro ⟨Ha, Hb, Hv⟩
  ihave Ha2 := (pointsTo_share (PosShare.mem_left_op_right fullShare)).1 $$ Ha
  icases Ha2 with ⟨Hl, Hr⟩
  ihave Hl2 := (pointsTo_share (PosShare.mem_left_op_right fullShare.left)).1 $$ Hl
  icases Hl2 with ⟨Hll, Hlr⟩
  ihave Hr2 := (pointsTo_share (PosShare.mem_left_op_right fullShare.right)).1 $$ Hr
  icases Hr2 with ⟨Hrl, Hrr⟩
  isplitl [Hll]; · iexact Hll
  isplitl [Hlr]; · iexact Hlr
  isplitl [Hrl]; · iexact Hrl
  isplitl [Hrr]; · iexact Hrr
  isplitl [Hb]; · iexact Hb
  iexact Hv

/-! ## The run -/

set_option backward.isDefEq.respectTransparency.types false in
/-- From any memory with zero counters, every weakly fair execution of the program terminates, each window's array
    then holding what the pipeline's write-backs make of the proof data. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj))
    (hu₀ := .rfl)
    (V := V m) (hmain := hmain m Variants.none) (hsplit := arrays_dealt m)
    (X := fun _ => iprop(emp)) (Y := fun _ => iprop(emp)) (Z := fun c => Pipeline.unscopedRest spec0 c (V m c))
    (hX := fun c => by
      iintro H; isplitr; · iempintro
      iexact H)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun _ _ => True)
    (hY := fun c s' => by
      iintro ⟨-, -, HSI⟩; imodintro
      isplitr
      swap; · iexact HSI
      ipureintro; trivial)
    (hQ := fun s h c w => (h c).1 w)

/-- The frame: the program runs to its end and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (((dats m 0 c).arrAt_in 0 rfl _).trans ((A_eq m c 0).trans (V_main_arg0 m c))),
      (h c 4).trans (((dats m 0 c).arrAt_in 4 rfl _).trans ((A_eq m c 4).trans (V_main_arg1 m c)))⟩) (run_main m ρ)

end Cert.KernelIdeal.Fr

end
-- ==== Proof.KBody.lean ====
/-
  The kernel body at one grid point.

  The body reads the whole table, scales each table row to unit length, and for each of its four row slabs
  multiplies the slab by the scaled table and stores the 1024 x 16 product into its own quarter of the
  4096 x 16 output block. The four stores tile the output block, so what the body leaves there is a function
  of the five input blocks alone.
-/
import proofs.«169231_g59854664237102_cont_9to1c4b_179_3_alg».proof.Proof.Gen.Kernel.Launch
import proofs.«169231_g59854664237102_cont_9to1c4b_179_3_alg».proof.Proof.Gen.Kernel.Skeleton
import proofs.«169231_g59854664237102_cont_9to1c4b_179_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole table. -/
abbrev rTab : Rect S1000x16 := Rect.unit (s := S1000x16) ![0, 0] S1000x16.size inb_S1000x16_S1000x16_0_0
/-- A whole row slab. -/
abbrev rSlab : Rect S1024x1000 := Rect.unit (s := S1024x1000) ![0, 0] S1024x1000.size inb_S1024x1000_S1024x1000_0_0
/-- The four quarters of the output block, by rows. -/
abbrev rQ0 : Rect S4096x16 := Rect.unit (s := S4096x16) ![0, 0] S1024x16.size inb_S4096x16_S1024x16_0_0
abbrev rQ1 : Rect S4096x16 := Rect.unit (s := S4096x16) ![1024, 0] S1024x16.size inb_S4096x16_S1024x16_1024_0
abbrev rQ2 : Rect S4096x16 := Rect.unit (s := S4096x16) ![2048, 0] S1024x16.size inb_S4096x16_S1024x16_2048_0
abbrev rQ3 : Rect S4096x16 := Rect.unit (s := S4096x16) ![3072, 0] S1024x16.size inb_S4096x16_S1024x16_3072_0

/-! ## What the body leaves in the output block -/

/-- The output block after the body, from the four slabs and the table: quarter `j` holds slab `j` times the
    scaled table (the later store first). -/
def outBlk (x0 x1 x2 x3 : Vec F S1024x1000 .f32) (e : Vec F S1000x16 .f32) : Vec F S4096x16 .f32 :=
  View.canon [⟨rQ3, k0_pay5 (View.ld e rTab) (View.ld x3 rSlab)⟩,
    ⟨rQ2, k0_pay4 (View.ld e rTab) (View.ld x2 rSlab)⟩,
    ⟨rQ1, k0_pay3 (View.ld e rTab) (View.ld x1 rSlab)⟩,
    ⟨rQ0, k0_pay2 (View.ld e rTab) (View.ld x0 rSlab)⟩]

/-- The four quarters tile the block, so they cover it. -/
theorem cover_outBlk (p3 p2 p1 p0 : Vec F S1024x16 .f32) (y : S4096x16.Idx) :
    ∃ pc ∈ ([⟨rQ3, p3⟩, ⟨rQ2, p2⟩, ⟨rQ1, p1⟩, ⟨rQ0, p0⟩] : List (View.Piece (Elt F) S4096x16 .f32)), y ∈ pc.1.set :=
  View.cover_of_tiled [⟨rQ3, p3⟩, ⟨rQ2, p2⟩, ⟨rQ1, p1⟩, ⟨rQ0, p0⟩] S1024x16.size (by rfl) y

/-! ## The body's triple -/

set_option maxHeartbeats 1000000 in
/-- The kernel body on whole staging memrefs, the five inputs' at read contents and the output's at anything, runs
    to the continuation holding the inputs' as they were and the output's at `outBlk` of the inputs'. -/
theorem sound_kernel (c : Dev nD) (E : Set ℕ) (i : grid0.Coords)
    (arg1 : Memref sig .tc .vmem S1024x1000 .f32) (harg1 : arg1.IsWhole) (arg2 : Memref sig .tc .vmem S1024x1000 .f32) (harg2 : arg2.IsWhole)
    (arg3 : Memref sig .tc .vmem S1024x1000 .f32) (harg3 : arg3.IsWhole) (arg4 : Memref sig .tc .vmem S1024x1000 .f32) (harg4 : arg4.IsWhole)
    (arg5 : Memref sig .tc .vmem S1000x16 .f32) (harg5 : arg5.IsWhole) (arg6 : Memref sig .tc .vmem S4096x16 .f32) (harg6 : arg6.IsWhole)
    (x0 x1 x2 x3 : Vec F S1024x1000 .f32) (e : Vec F S1000x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare e ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare e
            ∗ owns (c : Thread nD τ) arg6 fullShare (outBlk x0 x1 x2 x3 e)) -∗ K ⟨⟩))
      ⊢ wp frame (wpE (defs₀ (F := F)) Variants.none c none) E (cc0__embed_kernel i arg1 harg1 arg2 harg2 arg3 harg3 arg4 harg4 arg5 harg5 arg6 harg6) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_outBlk _ _ _ _)

end Cert.Kernel.Fr

end
-- ==== Proof.KData.lean ====
/-
  The pipeline's proof data, and the body obligation at every grid point.

  The grid has four points. At point `t` input window `j` (`j = 0 … 3`) holds rows `(4t + j)·1024 …` of the
  dense matrix, window 4 the whole table, and the output window rows `4096·t …` of the result. All four
  matrix windows read the same array, so each holds a quarter share of it.
-/
import proofs.«169231_g59854664237102_cont_9to1c4b_179_3_alg».proof.Proof.KBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- Core `c`'s buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input's
    buffer at its block and the output's at `outBlk` of the input blocks; the invariant the scoped buffers that
    are no staging buffer, untouched; nothing owed; the dense matrix's array dealt in quarters to the four
    windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlk (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KRegion.lean ====
/-
  The run of the program: the launch of its one region, and the frame.

  The region's four matrix windows read one array. The array's buffer, held whole when the region is entered,
  is dealt to them in quarters; every other window's array is held whole.
-/
import proofs.«169231_g59854664237102_cont_9to1c4b_179_3_alg».proof.Proof.KData

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The three buffers behind the six windows' arrays, each held whole, make the windows' arrays at the shares the
    proof data names: the dense matrix's buffer split in halves and each half in halves again. -/
theorem arrays_dealt (c : Dev nD) :
    (Pipeline.arrBufs spec0 c (V m c) : sProp 𝕄) ⊢ (dats m 0 c).arrays ((dats m 0 c).arrAt · 0) := by
  have e1 : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0)) := by
    unfold Pipeline.arrBufs
    exact bigSep_eq_bigSepL_of_eq [main_arg0, main_arg1, main_v0] (by decide) (by decide) _
  rw [e1]
  unfold Dat.arrays
  rw [bigSep_W0]
  rw [(arr_whole0 0).set_eq_univ, (arr_whole0 4).set_eq_univ, (arr_whole0 5).set_eq_univ]
  rw [show (dats m 0 c).share 0 = fullShare.left.left from rfl, show (dats m 0 c).share 1 = fullShare.left.right from rfl,
    show (dats m 0 c).share 2 = fullShare.right.left from rfl, show (dats m 0 c).share 3 = fullShare.right.right from rfl,
    show (dats m 0 c).share 4 = fullShare from rfl, show (dats m 0 c).share 5 = fullShare from rfl]
  iintro ⟨Ha, Hb, Hv⟩
  ihave Ha2 := (pointsTo_share (PosShare.mem_left_op_right fullShare)).1 $$ Ha
  icases Ha2 with ⟨Hl, Hr⟩
  ihave Hl2 := (pointsTo_share (PosShare.mem_left_op_right fullShare.left)).1 $$ Hl
  icases Hl2 with ⟨Hll, Hlr⟩
  ihave Hr2 := (pointsTo_share (PosShare.mem_left_op_right fullShare.right)).1 $$ Hr
  icases Hr2 with ⟨Hrl, Hrr⟩
  isplitl [Hll]; · iexact Hll
  isplitl [Hlr]; · iexact Hlr
  isplitl [Hrl]; · iexact Hrl
  isplitl [Hrr]; · iexact Hrr
  isplitl [Hb]; · iexact Hb
  iexact Hv

/-! ## The run -/

set_option backward.isDefEq.respectTransparency.types false in
/-- From any memory with zero counters, every weakly fair execution of the program terminates, each window's array
    then holding what the pipeline's write-backs make of the proof data. -/
theorem run_main : θ_run defs (onTc (τ := τ) (main (F := F))) ⟨m, fun _ => 0, ρ⟩
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj))
    (hu₀ := .rfl)
    (V := V m) (hmain := hmain m Variants.none) (hsplit := arrays_dealt m)
    (X := fun _ => iprop(emp)) (Y := fun _ => iprop(emp)) (Z := fun c => Pipeline.unscopedRest spec0 c (V m c))
    (hX := fun c => by
      iintro H; isplitr; · iempintro
      iexact H)
    (hin := fun c => by
      show iprop(emp ∗ Pipeline.scopedRest spec0 c) ⊢ Pipeline.scopedRest spec0 c
      iintro ⟨-, H⟩; iexact H)
    (hout := fun c => by
      show Pipeline.scopedRest spec0 c ⊢ iprop(emp ∗ Pipeline.scopedRest spec0 c)
      iintro H; isplitr; · iempintro
      iexact H)
    (QY := fun _ _ => True)
    (hY := fun c s' => by
      iintro ⟨-, -, HSI⟩; imodintro
      isplitr
      swap; · iexact HSI
      ipureintro; trivial)
    (hQ := fun s h c w => (h c).1 w)

/-- The frame: the program runs to its end and leaves both argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c 0).trans (((dats m 0 c).arrAt_in 0 rfl _).trans ((A_eq m c 0).trans (V_main_arg0 m c))),
      (h c 4).trans (((dats m 0 c).arrAt_in 4 rfl _).trans ((A_eq m c 4).trans (V_main_arg1 m c)))⟩) (run_main m ρ)

end Cert.Kernel.Fr

end
-- ==== Proof.Spec.lean ====
/-
  The mathematical content of the claim, stated once over literal shapes and free of either program.

  Inputs: a dense matrix `ids` of 16384 rows and 1000 columns and a table `e` of 1000 rows and 16 columns,
  all entries extended reals. Each table row is scaled to unit Euclidean length, the length bounded below by a
  fixed small positive constant so that a zero row stays zero; the result is the product of `ids` with the
  scaled table. Both programs compute exactly this, entry by entry.
-/
import Idealize.ShloMosaic.Lib.ValueIdx
import Idealize.ShloMosaic.PureOps.Ideal

noncomputable section

open scoped BigOperators

namespace Cert.Embed

open Idealize.ShloMosaic Idealize.ShloMosaic.ValueIdx

/-- The shape of the dense left factor. -/
abbrev SIds : Shape := ⟨2, ![16384, 1000]⟩
/-- The shape of the table. -/
abbrev STab : Shape := ⟨2, ![1000, 16]⟩
/-- The shape of the product. -/
abbrev SOut : Shape := ⟨2, ![16384, 16]⟩

/-- The squared Euclidean length of table row `k`: the sum of the squares of its 16 entries, started from the
    zero word (which denotes the real zero). -/
def rowSq (e : STab.Idx → EReal) (k : Fin 1000) : EReal :=
  Ideal.ofBits .f32 0x00000000#32 + ∑ j : Fin 16, e (ix2 k j) * e (ix2 k j)

/-- The length row `k` is divided by: its Euclidean length, or the fixed lower bound if that is larger. -/
def rowLen (e : STab.Idx → EReal) (k : Fin 1000) : EReal :=
  max (Ideal.sqrt (rowSq e k)) (Ideal.ofBits .f32 0x2B8CBCCC#32)

/-- Entry `(k, c)` of the table with every row scaled by its `rowLen`. -/
def unitRow (e : STab.Idx → EReal) (k : Fin 1000) (c : Fin 16) : EReal :=
  Ideal.div (e (ix2 k c)) (rowLen e k)

/-- Entry `(r, c)` of the product of `ids` with the scaled table. -/
def prodAt (ids : SIds.Idx → EReal) (e : STab.Idx → EReal) (r : Fin 16384) (c : Fin 16) : EReal :=
  ∑ k : Fin 1000, ids (ix2 r k) * unitRow e k c

/-- The whole product as an array. -/
def prod (ids : SIds.Idx → EReal) (e : STab.Idx → EReal) : SOut.Idx → EReal :=
  fun i => prodAt ids e ⟨(i 0).val, idx2_lt0 i⟩ ⟨(i 1).val, idx2_lt1 i⟩

theorem prod_ix2 (ids : SIds.Idx → EReal) (e : STab.Idx → EReal) (r : Fin 16384) (c : Fin 16) :
    prod ids e (ix2 r c) = prodAt ids e r c := rfl

end Cert.Embed

end
-- ==== Proof.PayIsSpec.lean ====
/-
  The arithmetic of the kernel body, read entry by entry, is the shared specification.

  The body first scales the table: each row is divided by the larger of its Euclidean length and a fixed small
  positive constant. It then multiplies four blocks of 1024 rows of the dense factor by the scaled table, each
  product accumulated from zero. Here the scaled table is read at an entry (k, c) as `unitRow e k c`, and each
  of the four products at an entry (r, c) as the sum over k of the block's entry (r, k) times `unitRow e k c`.
-/
import proofs.«169231_g59854664237102_cont_9to1c4b_179_3_alg».proof.Proof.Spec
import proofs.«169231_g59854664237102_cont_9to1c4b_179_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Embed.Ker

open Idealize.ShloMosaic Idealize.ShloMosaic.ValueIdx Cert.KernelIdeal Cert.KernelIdeal.Gen

/-! ## Two layout operations read at an index given by coordinates -/

/-- A vector of length `a` cast to a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sum along a row -/

/-- The sum of a 1000 by 16 array along its second axis, read at row `k`, is the sum of the 16 entries of that row. -/
theorem laneSum_apply (src : FVec Ideal S1000x16 .f32) (h : S1000x16.Reduces [1] S1000) (hφ : FKind.Formats .f32)
    (hacc : (0x00000000#32 : BitVec 32) = 0x00000000#32) (k : Fin 1000) :
    multiReduction (F := Ideal) .add [1] S1000 src 0x00000000#32 h hφ hacc (ix1 k) = ∑ j : Fin 16, src (ix2 k j) := by
  refine (Ideal.multiReduction_add_single src 0x00000000#32 h hφ hacc (ix1 k)).trans ?_
  refine Finset.sum_congr rfl fun j _ => ?_
  exact congrArg src (funext fun a => Fin.ext (by match a with | ⟨0, _⟩ => rfl | ⟨1, _⟩ => rfl))

/-! ## The scaled table -/

/-- The scaled table the body computes, read at `(k, c)`, is entry `(k, c)` of the table divided by the length of
    row `k` bounded below: `unitRow e k c`. -/
theorem pay1_apply (e : Vec Ideal Cert.KernelIdeal.S1000x16 .f32) (k : Fin 1000) (c : Fin 16) :
    Cert.KernelIdeal.Gen.k0_pay1 (F := Ideal) e (ix2 k c) = Cert.Embed.unitRow e k c := by
  unfold k0_pay1
  show Ideal.div (e (ix2 k c)) (broadcastTo S1000x16 _ _ (ix2 k c)) = Ideal.div (e (ix2 k c)) (rowLen e k)
  refine congrArg (Ideal.div (e (ix2 k c))) ?_
  refine (broadcastTo_a1_ab_apply _ _ k c).trans ?_
  show max (Ideal.sqrt (shapeCast S1000x1 _ _ (ix2 k (0 : Fin 1)))) (Ideal.ofBits .f32 0x2B8CBCCC#32)
    = max (Ideal.sqrt (rowSq e k)) (Ideal.ofBits .f32 0x2B8CBCCC#32)
  refine congrArg (fun t => max (Ideal.sqrt t) (Ideal.ofBits .f32 0x2B8CBCCC#32)) ?_
  refine (shapeCast_a_a1_apply _ _ k (0 : Fin 1)).trans ?_
  refine (laneSum_apply _ _ _ _ k).trans ?_
  show (∑ j : Fin 16, e (ix2 k j) * e (ix2 k j)) = Ideal.ofBits .f32 0x00000000#32 + ∑ j : Fin 16, e (ix2 k j) * e (ix2 k j)
  rw [Ideal.ofBits_zero_f32, zero_add]

/-! ## The products -/

theorem lhs_0 (i : S1024x16.Idx) (q : dot_S1024x1000_S1000x16_S1024x16_1_0_0_1_n_n.contr.Idx) :
    (dot_S1024x1000_S1000x16_S1024x16_1_0_0_1_n_n.lhsIdx i q 0).val = (i 0).val := by
  unfold DotDims.lhsIdx
  rw [dif_neg (show ¬(0 : Fin S1024x1000.rank) ∈ dot_S1024x1000_S1000x16_S1024x16_1_0_0_1_n_n.lhsBatch by decide), dif_pos (show (0 : Fin S1024x1000.rank) ∈ dot_S1024x1000_S1000x16_S1024x16_1_0_0_1_n_n.lhsNonContracting by decide)]
  rfl
theorem lhs_1 (i : S1024x16.Idx) (q : dot_S1024x1000_S1000x16_S1024x16_1_0_0_1_n_n.contr.Idx) :
    (dot_S1024x1000_S1000x16_S1024x16_1_0_0_1_n_n.lhsIdx i q 1).val = (q ⟨0, by decide⟩).val :=
  dot_S1024x1000_S1000x16_S1024x16_1_0_0_1_n_n.lhsIdx_val_of_single rfl i q
theorem rhs_0 (i : S1024x16.Idx) (q : dot_S1024x1000_S1000x16_S1024x16_1_0_0_1_n_n.contr.Idx) :
    (dot_S1024x1000_S1000x16_S1024x16_1_0_0_1_n_n.rhsIdx i q 0).val = (q ⟨0, by decide⟩).val :=
  dot_S1024x1000_S1000x16_S1024x16_1_0_0_1_n_n.rhsIdx_val_of_single rfl i q
theorem rhs_1 (i : S1024x16.Idx) (q : dot_S1024x1000_S1000x16_S1024x16_1_0_0_1_n_n.contr.Idx) :
    (dot_S1024x1000_S1000x16_S1024x16_1_0_0_1_n_n.rhsIdx i q 1).val = (i 1).val := by
  unfold DotDims.rhsIdx
  rw [dif_neg (show ¬(1 : Fin S1000x16.rank) ∈ dot_S1024x1000_S1000x16_S1024x16_1_0_0_1_n_n.rhsBatch by decide), dif_pos (show (1 : Fin S1000x16.rank) ∈ dot_S1024x1000_S1000x16_S1024x16_1_0_0_1_n_n.rhsNonContracting by decide)]
  rfl

/-- A block of 1024 rows times a 1000 by 16 array, accumulated from zero, read at `(r, c)`: the sum over `k` of the
    block at `(r, k)` times the array at `(k, c)`. -/
theorem matmul_zero_apply (x : FVec Ideal S1024x1000 .f32) (y : FVec Ideal S1000x16 .f32) (r : Fin 1024) (c : Fin 16) :
    matmul (F := Ideal) dot_S1024x1000_S1000x16_S1024x16_1_0_0_1_n_n none x y (constant (F := Ideal) S1024x16 .f32 0x00000000#32) (ix2 r c)
      = ∑ k : Fin 1000, x (ix2 r k) * y (ix2 k c) := by
  refine (Ideal.matmul_constant_zero_apply dot_S1024x1000_S1000x16_S1024x16_1_0_0_1_n_n none x y (ix2 r c)).trans ?_
  rw [← Equiv.sum_comp (contrEquiv1 dot_S1024x1000_S1000x16_S1024x16_1_0_0_1_n_n 1000 rfl rfl).symm]
  refine Finset.sum_congr rfl fun k _ => ?_
  have hk := contrEquiv1_symm_val dot_S1024x1000_S1000x16_S1024x16_1_0_0_1_n_n 1000 rfl rfl k
  have el : dot_S1024x1000_S1000x16_S1024x16_1_0_0_1_n_n.lhsIdx (ix2 r c) ((contrEquiv1 dot_S1024x1000_S1000x16_S1024x16_1_0_0_1_n_n 1000 rfl rfl).symm k) = ix2 r k := funext fun a => Fin.ext (by
    match a with
    | ⟨0, _⟩ => exact lhs_0 _ _
    | ⟨1, _⟩ => exact (lhs_1 _ _).trans hk)
  have er : dot_S1024x1000_S1000x16_S1024x16_1_0_0_1_n_n.rhsIdx (ix2 r c) ((contrEquiv1 dot_S1024x1000_S1000x16_S1024x16_1_0_0_1_n_n 1000 rfl rfl).symm k) = ix2 k c := funext fun a => Fin.ext (by
    match a with
    | ⟨0, _⟩ => exact (rhs_0 _ _).trans hk
    | ⟨1, _⟩ => exact rhs_1 _ _)
  rw [el, er]

/-- The first product the body stores, read at `(r, c)`. -/
theorem pay2_apply (e : Vec Ideal Cert.KernelIdeal.S1000x16 .f32) (x : Vec Ideal Cert.KernelIdeal.S1024x1000 .f32) (r : Fin 1024) (c : Fin 16) :
    Cert.KernelIdeal.Gen.k0_pay2 (F := Ideal) e x (ix2 r c) = ∑ k : Fin 1000, x (ix2 r k) * Cert.Embed.unitRow e k c := by
  unfold k0_pay2
  refine (matmul_zero_apply x (k0_pay1 (F := Ideal) e) r c).trans ?_
  exact Finset.sum_congr rfl fun k _ => congrArg (x (ix2 r k) * ·) (pay1_apply e k c)

/-- The second product the body stores, read at `(r, c)`. -/
theorem pay3_apply (e : Vec Ideal Cert.KernelIdeal.S1000x16 .f32) (x : Vec Ideal Cert.KernelIdeal.S1024x1000 .f32) (r : Fin 1024) (c : Fin 16) :
    Cert.KernelIdeal.Gen.k0_pay3 (F := Ideal) e x (ix2 r c) = ∑ k : Fin 1000, x (ix2 r k) * Cert.Embed.unitRow e k c := by
  unfold k0_pay3
  refine (matmul_zero_apply x (k0_pay1 (F := Ideal) e) r c).trans ?_
  exact Finset.sum_congr rfl fun k _ => congrArg (x (ix2 r k) * ·) (pay1_apply e k c)

/-- The third product the body stores, read at `(r, c)`. -/
theorem pay4_apply (e : Vec Ideal Cert.KernelIdeal.S1000x16 .f32) (x : Vec Ideal Cert.KernelIdeal.S1024x1000 .f32) (r : Fin 1024) (c : Fin 16) :
    Cert.KernelIdeal.Gen.k0_pay4 (F := Ideal) e x (ix2 r c) = ∑ k : Fin 1000, x (ix2 r k) * Cert.Embed.unitRow e k c := by
  unfold k0_pay4
  refine (matmul_zero_apply x (k0_pay1 (F := Ideal) e) r c).trans ?_
  exact Finset.sum_congr rfl fun k _ => congrArg (x (ix2 r k) * ·) (pay1_apply e k c)

/-- The fourth product the body stores, read at `(r, c)`. -/
theorem pay5_apply (e : Vec Ideal Cert.KernelIdeal.S1000x16 .f32) (x : Vec Ideal Cert.KernelIdeal.S1024x1000 .f32) (r : Fin 1024) (c : Fin 16) :
    Cert.KernelIdeal.Gen.k0_pay5 (F := Ideal) e x (ix2 r c) = ∑ k : Fin 1000, x (ix2 r k) * Cert.Embed.unitRow e k c := by
  unfold k0_pay5
  refine (matmul_zero_apply x (k0_pay1 (F := Ideal) e) r c).trans ?_
  exact Finset.sum_congr rfl fun k _ => congrArg (x (ix2 r k) * ·) (pay1_apply e k c)

end Cert.Embed.Ker

end
-- ==== Proof.OutArray.lean ====
/-
  From the output blocks to the whole output array, for the idealized kernel.

  At grid point t the body leaves in the 4096 x 16 output block, quarter by quarter, the product of a slab of
  1024 rows of the dense factor with the scaled table. Slab j at point t is rows (4t + j)·1024 … of the dense
  factor, and the output block is rows 4096·t … of the result: so row r of the block holds row 4096·t + r of the
  product of the whole dense factor with the scaled table. The four points' blocks tile the result, which
  therefore ends holding that product.
-/
import proofs.«169231_g59854664237102_cont_9to1c4b_179_3_alg».proof.Proof.Data
import proofs.«169231_g59854664237102_cont_9to1c4b_179_3_alg».proof.Proof.PayIsSpec
import proofs.«169231_g59854664237102_cont_9to1c4b_179_3_alg».proof.Proof.Spec
import Idealize.ShloMosaic.Lib.Pipeline.Value
import Idealize.ShloMosaic.Lib.ValueIdx

set_option maxRecDepth 16384

noncomputable section

open scoped BigOperators

namespace Cert.KernelIdeal.Out

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-! ## The block index maps, decided over the grid -/

/-- At every point, slab j is block 4q + j of the dense factor along rows and block 0 along columns, the table
    window is the whole table, and the output block is block q ≤ 3 of the result along rows, block 0 along
    columns; q the output's block index at that point. -/
theorem blockIndex_facts : ∀ t : Fin cfg0.N,
    win0_0.index t (0 : Fin 2) = 4 * win0_5.index t (0 : Fin 2) + 0
    ∧ win0_1.index t (0 : Fin 2) = 4 * win0_5.index t (0 : Fin 2) + 1
    ∧ win0_2.index t (0 : Fin 2) = 4 * win0_5.index t (0 : Fin 2) + 2
    ∧ win0_3.index t (0 : Fin 2) = 4 * win0_5.index t (0 : Fin 2) + 3
    ∧ win0_0.index t (1 : Fin 2) = 0 ∧ win0_1.index t (1 : Fin 2) = 0
    ∧ win0_2.index t (1 : Fin 2) = 0 ∧ win0_3.index t (1 : Fin 2) = 0
    ∧ win0_4.index t (0 : Fin 2) = 0 ∧ win0_4.index t (1 : Fin 2) = 0
    ∧ win0_5.index t (0 : Fin 2) ≤ 3 ∧ win0_5.index t (1 : Fin 2) = 0 :=
  (by decide +kernel : ∀ t : Fin grid0.N, _)

/-- Each of the four row blocks of the result is some point's. -/
theorem blockIndex_onto : ∀ q : Fin 4, ∃ t : Fin cfg0.N, win0_5.index t (0 : Fin 2) = q.val :=
  (by decide +kernel : ∀ q : Fin 4, ∃ t : Fin grid0.N, win0_5.index t (0 : Fin 2) = q.val)

/-! ## The output block, read at an index -/

theorem zeroOffsets : (![0, 0] : Fin 2 → Nat) = fun _ => 0 :=
  funext fun a => by match a with | ⟨0, _⟩ => rfl | ⟨1, _⟩ => rfl

/-- An index of the block whose row is below a quarter's first row is not in that quarter. -/
theorem not_mem_quarter (off : ℕ) (inb) (y : S4096x16.Idx) (h : (y 0).val < off) :
    y ∉ (Rect.unit (s := S4096x16) ![off, 0] S1024x16.size inb).set := by
  rw [Rect.mem_set_unit]
  intro hm
  have h0 : off ≤ (y 0).val := (hm 0).1
  omega

/-- The last quarter: rows 3072 … of the block hold the fourth slab times the scaled table. -/
theorem outBlk_quarter3 (x0 x1 x2 x3 : Vec Ideal S1024x1000 .f32) (e : Vec Ideal S1000x16 .f32) (r : Fin 1024) (c : Fin 16)
    (y : S4096x16.Idx) (hr : (y 0).val = 3072 + r.val) (hc : (y 1).val = c.val) :
    outBlk x0 x1 x2 x3 e y = ∑ k : Fin 1000, x3 (ix2 r k) * Cert.Embed.unitRow e k c := by
  have hy : y = rQ3.emb (ix2 r c) := funext fun a => Fin.ext (by
    match a with
    | ⟨0, _⟩ => show (y 0).val = 3072 + 1 * r.val; omega
    | ⟨1, _⟩ => show (y 1).val = 0 + 1 * c.val; omega)
  unfold outBlk
  rw [hy]
  refine (View.canon_cons_emb _ _ _ _).trans ?_
  refine (Cert.Embed.Ker.pay5_apply _ _ r c).trans ?_
  rw [View.ld_unit_zero (S := S1024x1000) zeroOffsets, View.ld_unit_zero (S := S1000x16) zeroOffsets]

/-- The third quarter: rows 2048 … 3071 hold the third slab times the scaled table. -/
theorem outBlk_quarter2 (x0 x1 x2 x3 : Vec Ideal S1024x1000 .f32) (e : Vec Ideal S1000x16 .f32) (r : Fin 1024) (c : Fin 16)
    (y : S4096x16.Idx) (hr : (y 0).val = 2048 + r.val) (hc : (y 1).val = c.val) :
    outBlk x0 x1 x2 x3 e y = ∑ k : Fin 1000, x2 (ix2 r k) * Cert.Embed.unitRow e k c := by
  have hy : y = rQ2.emb (ix2 r c) := funext fun a => Fin.ext (by
    match a with
    | ⟨0, _⟩ => show (y 0).val = 2048 + 1 * r.val; omega
    | ⟨1, _⟩ => show (y 1).val = 0 + 1 * c.val; omega)
  have hr' := r.isLt
  unfold outBlk
  refine Eq.trans (View.canon_cons_of_not_mem _ _ ?_) ?_
  · exact not_mem_quarter 3072 inb_S4096x16_S1024x16_3072_0 y (by omega)
  rw [hy]
  refine (View.canon_cons_emb _ _ _ _).trans ?_
  refine (Cert.Embed.Ker.pay4_apply _ _ r c).trans ?_
  rw [View.ld_unit_zero (S := S1024x1000) zeroOffsets, View.ld_unit_zero (S := S1000x16) zeroOffsets]

/-- The second quarter: rows 1024 … 2047 hold the second slab times the scaled table. -/
theorem outBlk_quarter1 (x0 x1 x2 x3 : Vec Ideal S1024x1000 .f32) (e : Vec Ideal S1000x16 .f32) (r : Fin 1024) (c : Fin 16)
    (y : S4096x16.Idx) (hr : (y 0).val = 1024 + r.val) (hc : (y 1).val = c.val) :
    outBlk x0 x1 x2 x3 e y = ∑ k : Fin 1000, x1 (ix2 r k) * Cert.Embed.unitRow e k c := by
  have hy : y = rQ1.emb (ix2 r c) := funext fun a => Fin.ext (by
    match a with
    | ⟨0, _⟩ => show (y 0).val = 1024 + 1 * r.val; omega
    | ⟨1, _⟩ => show (y 1).val = 0 + 1 * c.val; omega)
  have hr' := r.isLt
  unfold outBlk
  refine Eq.trans (View.canon_cons_of_not_mem _ _ ?_) ?_
  · exact not_mem_quarter 3072 inb_S4096x16_S1024x16_3072_0 y (by omega)
  refine Eq.trans (View.canon_cons_of_not_mem _ _ ?_) ?_
  · exact not_mem_quarter 2048 inb_S4096x16_S1024x16_2048_0 y (by omega)
  rw [hy]
  refine (View.canon_cons_emb _ _ _ _).trans ?_
  refine (Cert.Embed.Ker.pay3_apply _ _ r c).trans ?_
  rw [View.ld_unit_zero (S := S1024x1000) zeroOffsets, View.ld_unit_zero (S := S1000x16) zeroOffsets]

/-- The first quarter: rows 0 … 1023 hold the first slab times the scaled table. -/
theorem outBlk_quarter0 (x0 x1 x2 x3 : Vec Ideal S1024x1000 .f32) (e : Vec Ideal S1000x16 .f32) (r : Fin 1024) (c : Fin 16)
    (y : S4096x16.Idx) (hr : (y 0).val = 0 + r.val) (hc : (y 1).val = c.val) :
    outBlk x0 x1 x2 x3 e y = ∑ k : Fin 1000, x0 (ix2 r k) * Cert.Embed.unitRow e k c := by
  have hy : y = rQ0.emb (ix2 r c) := funext fun a => Fin.ext (by
    match a with
    | ⟨0, _⟩ => show (y 0).val = 0 + 1 * r.val; omega
    | ⟨1, _⟩ => show (y 1).val = 0 + 1 * c.val; omega)
  have hr' := r.isLt
  unfold outBlk
  refine Eq.trans (View.canon_cons_of_not_mem _ _ ?_) ?_
  · exact not_mem_quarter 3072 inb_S4096x16_S1024x16_3072_0 y (by omega)
  refine Eq.trans (View.canon_cons_of_not_mem _ _ ?_) ?_
  · exact not_mem_quarter 2048 inb_S4096x16_S1024x16_2048_0 y (by omega)
  refine Eq.trans (View.canon_cons_of_not_mem _ _ ?_) ?_
  · exact not_mem_quarter 1024 inb_S4096x16_S1024x16_1024_0 y (by omega)
  rw [hy]
  refine (View.canon_cons_emb _ _ _ _).trans ?_
  refine (Cert.Embed.Ker.pay2_apply _ _ r c).trans ?_
  rw [View.ld_unit_zero (S := S1024x1000) zeroOffsets, View.ld_unit_zero (S := S1000x16) zeroOffsets]

/-- The output block read at an index, when slab j holds rows (4q + j)·1024 … of a dense factor and the table
    block is a table: the entry of the product of that dense factor with the scaled table, at row 4096·q plus the
    block's row and at the block's column. -/
theorem outBlk_eq_prod (x0 x1 x2 x3 : Vec Ideal S1024x1000 .f32) (e : Vec Ideal S1000x16 .f32)
    (ids : Cert.Embed.SIds.Idx → EReal) (tab : Cert.Embed.STab.Idx → EReal) (q : ℕ)
    (h0 : ∀ (r : Fin 1024) (k : Fin 1000) (i : Cert.Embed.SIds.Idx),
      (i 0).val = (4 * q + 0) * 1024 + r.val → (i 1).val = k.val → x0 (ix2 r k) = ids i)
    (h1 : ∀ (r : Fin 1024) (k : Fin 1000) (i : Cert.Embed.SIds.Idx),
      (i 0).val = (4 * q + 1) * 1024 + r.val → (i 1).val = k.val → x1 (ix2 r k) = ids i)
    (h2 : ∀ (r : Fin 1024) (k : Fin 1000) (i : Cert.Embed.SIds.Idx),
      (i 0).val = (4 * q + 2) * 1024 + r.val → (i 1).val = k.val → x2 (ix2 r k) = ids i)
    (h3 : ∀ (r : Fin 1024) (k : Fin 1000) (i : Cert.Embed.SIds.Idx),
      (i 0).val = (4 * q + 3) * 1024 + r.val → (i 1).val = k.val → x3 (ix2 r k) = ids i)
    (he : ∀ j : S1000x16.Idx, e j = tab j)
    (y : S4096x16.Idx) (i : Cert.Embed.SOut.Idx) (hi0 : (i 0).val = q * 4096 + (y 0).val) (hi1 : (i 1).val = (y 1).val) :
    outBlk x0 x1 x2 x3 e y = Cert.Embed.prod ids tab i := by
  have ee : e = tab := funext he
  subst ee
  have hy0 : (y 0).val < 4096 := idx2_lt0 y
  have hy1 : (y 1).val < 16 := idx2_lt1 y
  have ec : (⟨(y 1).val, hy1⟩ : Fin 16) = ⟨(i 1).val, idx2_lt1 i⟩ := Fin.ext hi1.symm
  show _ = Cert.Embed.prodAt ids e ⟨(i 0).val, idx2_lt0 i⟩ ⟨(i 1).val, idx2_lt1 i⟩
  unfold Cert.Embed.prodAt
  rw [← ec]
  by_cases c3 : 3072 ≤ (y 0).val
  · refine (outBlk_quarter3 x0 x1 x2 x3 e ⟨(y 0).val - 3072, by omega⟩ ⟨(y 1).val, hy1⟩ y (by show (y 0).val = 3072 + ((y 0).val - 3072); omega) rfl).trans ?_
    refine Finset.sum_congr rfl fun k _ => ?_
    refine congrArg (· * Cert.Embed.unitRow e k ⟨(y 1).val, hy1⟩) ?_
    exact h3 _ k _ (by show (i 0).val = (4 * q + 3) * 1024 + ((y 0).val - 3072); omega) rfl
  by_cases c2 : 2048 ≤ (y 0).val
  · refine (outBlk_quarter2 x0 x1 x2 x3 e ⟨(y 0).val - 2048, by omega⟩ ⟨(y 1).val, hy1⟩ y (by show (y 0).val = 2048 + ((y 0).val - 2048); omega) rfl).trans ?_
    refine Finset.sum_congr rfl fun k _ => ?_
    refine congrArg (· * Cert.Embed.unitRow e k ⟨(y 1).val, hy1⟩) ?_
    exact h2 _ k _ (by show (i 0).val = (4 * q + 2) * 1024 + ((y 0).val - 2048); omega) rfl
  by_cases c1 : 1024 ≤ (y 0).val
  · refine (outBlk_quarter1 x0 x1 x2 x3 e ⟨(y 0).val - 1024, by omega⟩ ⟨(y 1).val, hy1⟩ y (by show (y 0).val = 1024 + ((y 0).val - 1024); omega) rfl).trans ?_
    refine Finset.sum_congr rfl fun k _ => ?_
    refine congrArg (· * Cert.Embed.unitRow e k ⟨(y 1).val, hy1⟩) ?_
    exact h1 _ k _ (by show (i 0).val = (4 * q + 1) * 1024 + ((y 0).val - 1024); omega) rfl
  · refine (outBlk_quarter0 x0 x1 x2 x3 e ⟨(y 0).val, by omega⟩ ⟨(y 1).val, hy1⟩ y (by show (y 0).val = 0 + (y 0).val; omega) rfl).trans ?_
    refine Finset.sum_congr rfl fun k _ => ?_
    refine congrArg (· * Cert.Embed.unitRow e k ⟨(y 1).val, hy1⟩) ?_
    exact h0 _ k _ (by show (i 0).val = (4 * q + 0) * 1024 + (y 0).val; omega) rfl

/-! ## What a point writes back -/

/-- What point t writes back is its block of the product of the dense factor with the scaled table, the arrays
    as the region finds them. -/
theorem flushed_eq (c : Dev nD) (t : Fin cfg0.N) :
    (dats (F := Ideal) m 0 c).flushed 5 t
      = ((cfg0.win 5).blk t).view.read (Elt Ideal) (Cert.Embed.prod (V m c main_arg0) (V m c main_arg1)) := by
  show (cfg0.win 5).cut (grid0.coords t) ((dats (F := Ideal) m 0 c).after 5 t) = _
  rw [after5]
  obtain ⟨e0, e1, e2, e3, f0, f1, f2, f3, g0, g1, hq, o1⟩ := blockIndex_facts t
  funext y
  show outBlk (iblk m c 0 t) (iblk m c 1 t) (iblk m c 2 t) (iblk m c 3 t) (iblk m c 4 t) y
    = Cert.Embed.prod (V m c main_arg0) (V m c main_arg1) (((cfg0.win 5).blk t).view.emb y)
  refine outBlk_eq_prod (iblk m c 0 t) (iblk m c 1 t) (iblk m c 2 t) (iblk m c 3 t) (iblk m c 4 t)
    (V m c main_arg0) (V m c main_arg1) (win0_5.index t (0 : Fin 2)) ?_ ?_ ?_ ?_ ?_ y (((cfg0.win 5).blk t).view.emb y) ?_ ?_
  · intro r k i hi0 hi1
    show V m c main_arg0 (((cfg0.win 0).blk t).view.emb (ix2 r k)) = V m c main_arg0 i
    refine congrArg (V m c main_arg0) (funext fun a => Fin.ext ?_)
    match a with
    | ⟨0, _⟩ => show win0_0.index t (0 : Fin 2) * 1024 + 1 * r.val = (i 0).val; omega
    | ⟨1, _⟩ => show win0_0.index t (1 : Fin 2) * 1000 + 1 * k.val = (i 1).val; omega
  · intro r k i hi0 hi1
    show V m c main_arg0 (((cfg0.win 1).blk t).view.emb (ix2 r k)) = V m c main_arg0 i
    refine congrArg (V m c main_arg0) (funext fun a => Fin.ext ?_)
    match a with
    | ⟨0, _⟩ => show win0_1.index t (0 : Fin 2) * 1024 + 1 * r.val = (i 0).val; omega
    | ⟨1, _⟩ => show win0_1.index t (1 : Fin 2) * 1000 + 1 * k.val = (i 1).val; omega
  · intro r k i hi0 hi1
    show V m c main_arg0 (((cfg0.win 2).blk t).view.emb (ix2 r k)) = V m c main_arg0 i
    refine congrArg (V m c main_arg0) (funext fun a => Fin.ext ?_)
    match a with
    | ⟨0, _⟩ => show win0_2.index t (0 : Fin 2) * 1024 + 1 * r.val = (i 0).val; omega
    | ⟨1, _⟩ => show win0_2.index t (1 : Fin 2) * 1000 + 1 * k.val = (i 1).val; omega
  · intro r k i hi0 hi1
    show V m c main_arg0 (((cfg0.win 3).blk t).view.emb (ix2 r k)) = V m c main_arg0 i
    refine congrArg (V m c main_arg0) (funext fun a => Fin.ext ?_)
    match a with
    | ⟨0, _⟩ => show win0_3.index t (0 : Fin 2) * 1024 + 1 * r.val = (i 0).val; omega
    | ⟨1, _⟩ => show win0_3.index t (1 : Fin 2) * 1000 + 1 * k.val = (i 1).val; omega
  · intro j
    show V m c main_arg1 (((cfg0.win 4).blk t).view.emb j) = V m c main_arg1 j
    refine congrArg (V m c main_arg1) (funext fun a => Fin.ext ?_)
    match a with
    | ⟨0, _⟩ => show win0_4.index t (0 : Fin 2) * 1000 + 1 * (j 0).val = (j 0).val; omega
    | ⟨1, _⟩ => show win0_4.index t (1 : Fin 2) * 16 + 1 * (j 1).val = (j 1).val; omega
  · show win0_5.index t (0 : Fin 2) * 4096 + 1 * (y 0).val = win0_5.index t (0 : Fin 2) * 4096 + (y 0).val
    omega
  · show win0_5.index t (1 : Fin 2) * 16 + 1 * (y 1).val = (y 1).val
    omega

/-! ## The blocks tile the result -/

/-- An index of the result is in point t's block iff each coordinate is in the block's range on its axis. -/
theorem mem_outBlock (t : Fin cfg0.N) (i : S16384x16.Idx) :
    i ∈ ((cfg0.win 5).blk t).view.set ↔ ∀ a : Fin 2, win0_5.index t a * S4096x16.size a ≤ (i a).val
      ∧ (i a).val < win0_5.index t a * S4096x16.size a + S4096x16.size a := by
  show i ∈ ((View.whole main_v0).slice (win0_5.rect t)).set ↔ _
  rw [View.set_slice_whole, Rect.mem_set_unit]
  exact Iff.rfl

/-- Row R of the result is in the block of the point whose block index is R / 4096. -/
theorem covered (i : S16384x16.Idx) :
    ∃ t : Fin cfg0.N, (cfg0.win 5).flush t = true ∧ i ∈ ((cfg0.win 5).blk t).view.set := by
  have hi0 : (i 0).val < 16384 := idx2_lt0 i
  have hi1 : (i 1).val < 16 := idx2_lt1 i
  obtain ⟨t, ht⟩ := blockIndex_onto ⟨(i 0).val / 4096, by omega⟩
  have q0 : win0_5.index t (0 : Fin 2) = (i 0).val / 4096 := ht
  obtain ⟨e0, e1, e2, e3, f0, f1, f2, f3, g0, g1, hq, o1⟩ := blockIndex_facts t
  refine ⟨t, flush0_5 t, ?_⟩
  rw [mem_outBlock]
  intro a
  match a with
  | ⟨0, _⟩ =>
    show win0_5.index t (0 : Fin 2) * 4096 ≤ (i 0).val ∧ (i 0).val < win0_5.index t (0 : Fin 2) * 4096 + 4096
    omega
  | ⟨1, _⟩ =>
    show win0_5.index t (1 : Fin 2) * 16 ≤ (i 1).val ∧ (i 1).val < win0_5.index t (1 : Fin 2) * 16 + 16
    omega

/-! ## The result after the run -/

/-- The result array after the last point: the product of the dense factor with the scaled table, the arguments
    as launched. -/
theorem final_out (c : Dev nD) :
    (Cert.KernelIdeal.Fr.dats (F := Ideal) m 0 c).arrAt 5 cfg0.N
      = Cert.Embed.prod (m ((c : Thread nD τ).loc main_arg0)) (m ((c : Thread nD τ).loc main_arg1)) :=
  (dats (F := Ideal) m 0 c).arrAt_eq_of_cover 5 (Cert.Embed.prod (V m c main_arg0) (V m c main_arg1))
    (fun t _ => flushed_eq m c t) covered

end Cert.KernelIdeal.Out

end
-- ==== Proof.RefIsSpec.lean ====
/-
  The reference program computes the specification: read entry by entry, its last value is the product of the
  dense factor with the table whose rows are scaled to unit length.
-/
import proofs.«169231_g59854664237102_cont_9to1c4b_179_3_alg».proof.Proof.Spec
import proofs.«169231_g59854664237102_cont_9to1c4b_179_3_alg».proof.Proof.Gen.ReferenceIdeal.Read

noncomputable section

open scoped BigOperators

namespace Cert.Embed.Ref

open Idealize.ShloMosaic Idealize.ShloMosaic.ValueIdx Cert.ReferenceIdeal Cert.ReferenceIdeal.Read

/-- The reference's scaled table, read at row `k` and column `c`, is the specification's scaled entry. -/
theorem v4_ix2 (x1 : (⟨Cert.ReferenceIdeal.S1000x16, .f32⟩ : BufTy).Contents (Elt Ideal)) (k : Fin 1000) (c : Fin 16) :
    val_main_v4 (F := Ideal) x1 (ix2 k c) = Cert.Embed.unitRow x1 k c := by
  have e3 : idx_main_v3 (ix2 k c) = ix2 k (0 : Fin 1) :=
    funext fun a => Fin.ext (by match a with | ⟨0, _⟩ => rfl | ⟨1, _⟩ => rfl)
  have e2 : idx_main_call0_v2 (ix2 k (0 : Fin 1)) = ix1 k :=
    funext fun a => Fin.ext (by match a with | ⟨0, _⟩ => rfl)
  have e1 : ∀ j : Fin 16, idx_main_call0_v1 (ix1 k) j = ix2 k j := fun j =>
    funext fun a => Fin.ext (by match a with | ⟨0, _⟩ => rfl | ⟨1, _⟩ => rfl)
  rw [val_main_v4_apply, val_main_v3_apply, e3, val_main_v2_apply, val_main_v0_apply, val_main_call0_v2_apply, e2,
    val_main_call0_v1_apply, val_main_v1_apply, val_main_cst_apply, val_main_call0_cst_apply]
  simp only [e1, val_main_call0_v0_apply, Ideal.mulf_def, Ideal.hostDivf_def, Ideal.hostUnary_sqrt_def,
    Ideal.maximumf_def, Ideal.ofBits_def]
  rfl

/-- The reference is the specification. -/
theorem ref_eq (x0 : (⟨Cert.ReferenceIdeal.S16384x1000, .f32⟩ : BufTy).Contents (Elt Ideal))
    (x1 : (⟨Cert.ReferenceIdeal.S1000x16, .f32⟩ : BufTy).Contents (Elt Ideal)) :
    Cert.ReferenceIdeal.Read.val_main_v5 (F := Ideal) x0 x1 = Cert.Embed.prod x0 x1 := by
  funext i
  obtain ⟨r, c, rfl⟩ : ∃ (r : Fin 16384) (c : Fin 16), i = ix2 r c := ⟨i 0, i 1, eq_ix2 i⟩
  have el : ∀ k : Fin 1000, lidx_main_v5 (ix2 r c) k = ix2 r k := fun k =>
    funext fun a => Fin.ext (by match a with | ⟨0, _⟩ => rfl | ⟨1, _⟩ => rfl)
  have er : ∀ k : Fin 1000, ridx_main_v5 (ix2 r c) k = ix2 k c := fun k =>
    funext fun a => Fin.ext (by match a with | ⟨0, _⟩ => rfl | ⟨1, _⟩ => rfl)
  rw [val_main_v5_apply, Cert.Embed.prod_ix2]
  unfold Cert.Embed.prodAt
  refine Finset.sum_congr rfl fun k _ => ?_
  rw [el, er, v4_ix2]

end Cert.Embed.Ref

end
-- ==== Proof.lean ====
/-
  Both programs compute, entry by entry, the product of the dense matrix with the table whose rows are scaled to
  unit Euclidean length (the length bounded below by one fixed positive constant): `Cert.Embed.prod`.

  The kernel reaches it in four grid points; at each point it scales the whole table anew and multiplies four slabs
  of 1024 rows by it, storing the four products into the four quarters of a block of 4096 result rows; the blocks
  of the four points tile the result. Each entry of a slab's product is the sum over the table's 1000 rows of a
  matrix entry times a scaled table entry, which is the reference's contraction term for term; no law of the
  extended reals beyond reading both sums over the same index set is used, so the inputs' finiteness is never opened.

  The four matrix windows of the kernel read one array; each holds a quarter share of it, which is all a reader
  needs. Both frames of the kernel are the same argument at the two instances; the reference's frame is its run
  with the result dropped. The idealization rewrote nothing, so there is nothing to preserve.
-/
import proofs.«169231_g59854664237102_cont_9to1c4b_179_3_alg».proof.Defs
import proofs.«169231_g59854664237102_cont_9to1c4b_179_3_alg».proof.Proof.Gen.Kernel
import proofs.«169231_g59854664237102_cont_9to1c4b_179_3_alg».proof.Proof.Gen.KernelIdeal
import proofs.«169231_g59854664237102_cont_9to1c4b_179_3_alg».proof.Proof.Gen.ReferenceIdeal
import proofs.«169231_g59854664237102_cont_9to1c4b_179_3_alg».proof.Proof.Gen.Pre_finite_inputs
import proofs.«169231_g59854664237102_cont_9to1c4b_179_3_alg».proof.Proof.Gen.ReferenceIdeal.Run
import proofs.«169231_g59854664237102_cont_9to1c4b_179_3_alg».proof.Proof.Gen.ReferenceIdeal.Read
import proofs.«169231_g59854664237102_cont_9to1c4b_179_3_alg».proof.Proof.Region
import proofs.«169231_g59854664237102_cont_9to1c4b_179_3_alg».proof.Proof.KRegion
import proofs.«169231_g59854664237102_cont_9to1c4b_179_3_alg».proof.Proof.OutArray
import proofs.«169231_g59854664237102_cont_9to1c4b_179_3_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to its end and leaves its arguments as they were. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the result array at `Cert.Embed.prod` of
    the arguments: the kernel because its four output blocks are the four blocks of that array, the reference
    because its last value is that array. -/
theorem algebraic : Cert.algebraic_KernelIdeal_ReferenceIdeal := by
  intro m ρ m' ρ' _ hagree
  refine ⟨fun c => Cert.Embed.prod (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c 5).trans (Cert.KernelIdeal.Out.final_out m c), ?_, ?_⟩)
      (Cert.KernelIdeal.Fr.run_main (F := Ideal) m ρ)
    · exact (h c 0).trans (((Cert.KernelIdeal.Fr.dats m 0 c).arrAt_in 0 rfl _).trans
        ((Cert.KernelIdeal.Fr.A_eq m c 0).trans (Cert.KernelIdeal.Fr.V_main_arg0 m c)))
    · exact (h c 4).trans (((Cert.KernelIdeal.Fr.dats m 0 c).arrAt_in 4 rfl _).trans
        ((Cert.KernelIdeal.Fr.A_eq m c 4).trans (Cert.KernelIdeal.Fr.V_main_arg1 m c)))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v5_eq, Cert.Embed.Ref.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
